-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Pieces.lean ====
/-
  What one grid point leaves in the accumulator and in the output block, as a value.

  The body of the kernel does three things at a point: where the contraction coordinate is 0 it first stores the
  zero block in the accumulator; everywhere it stores `acc + a·b` of the accumulator's contents and the point's
  two input blocks; where the contraction coordinate is the last it copies the accumulator to the output block.
  So, with `step acc a b := acc + a·b` (the body's one arithmetic term, `k0_pay2`) and `zero` the stored zero
  block (`k0_pay1`):
    * at a first point the accumulator ends at `step zero a b`;
    * at a middle point, and at a last point, it ends at `step acc a b` of what the point before left;
    * at a last point the output block ends at the same `step acc a b`.
  Each is read off the stores the body's run made: one covering store, whose loads read whole buffers; at a
  first point the accumulator's load reads back the zero block stored just before, and at a last point the
  output's value is the accumulator read back after its store.
-/
import proofs.«129728_j60842506715779_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

/-- Every load and store of the body is at offset (0, 0) of a whole 1024×1024 buffer. -/
theorem hz : (![0, 0] : Fin 2 → Nat) = fun _ => 0 := funext fun a => by fin_cases a <;> rfl

/-- A first point (contraction coordinate 0) leaves `zero + a·b` in the accumulator: the load that feeds the sum
    reads back the zero block the point has just stored. -/
theorem scratch_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : cond0_0 i) (hc1 : ¬cond0_1 i) (x0 x1 : Vec F S1024x1024 .bf16) :
    sout0_A_0 c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz]
  simp only [View.readAt_eq_ld, h3.read_unread, h4.read_unread, h6.read_unread, View.ld_unit_zero (S := S1024x1024) hz,
    View.readCov_unit_zero (S := S1024x1024) _ hz]

/-- A middle point leaves `acc + a·b` in the accumulator, `acc` what it held on entry. -/
theorem scratch_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : ¬cond0_1 i) (x0 x1 : Vec F S1024x1024 .bf16)
    (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz]

/-- A last point (contraction coordinate 3) leaves `acc + a·b` in the accumulator too … -/
theorem scratch_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 x1 : Vec F S1024x1024 .bf16)
    (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- … and the same value in the output block: the accumulator read back after that store. -/
theorem out_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x1024 .f32) (h5 : a5.IsWhole) (a6 : Memref sig .tc .vmem S1024x1024 .f32) (h6 : a6.IsWhole) (hc0 : ¬cond0_0 i) (hc1 : cond0_1 i) (x0 x1 : Vec F S1024x1024 .bf16)
    (xs0 : Vec F S1024x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz,
    View.readCov_unit_zero (S := S1024x1024) _ hz]

end Cert.KernelIdeal.Acc

end
-- ==== Proof.Blocks.lean ====
/-
  The input blocks of a grid point, as entries of the two arguments.

  The grid is 4×4×4: point `t` is (row block `t / 16`, column block `t / 4 % 4`, contraction block `t % 4`). The left
  window's block there is rows `[1024 (t / 16), +1024)` and columns `[1024 (t % 4), +1024)` of the array it stages; the
  right window's is rows `[1024 (t % 4), +1024)` and columns `[1024 (t / 4 % 4), +1024)`. The arrays staged are the
  host's conversions of the two arguments to bf16, and over the extended reals a change of float format is the
  identity: the blocks are blocks of the arguments themselves.
-/
import proofs.«129728_j60842506715779_1_alg».proof.Proof.Gen.KernelIdeal.Frame
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The two arguments of the program on core `c`, as launched … -/
abbrev argA (c : Dev nD) : FVec Ideal S4096x4096 .f32 := m ((c : Thread nD τ).loc main_arg0)
abbrev argB (c : Dev nD) : FVec Ideal S4096x4096 .f32 := m ((c : Thread nD τ).loc main_arg1)
/-- … and the blocks of them the body finds in its two input buffers at point `t`. -/
abbrev ablk (c : Dev nD) (t : Fin cfg0.N) : Vec Ideal S1024x1024 .bf16 := iblk m c 0 t
abbrev bblk (c : Dev nD) (t : Fin cfg0.N) : Vec Ideal S1024x1024 .bf16 := iblk m c 1 t

/-- Point `t` of the 4×4×4 grid is `(t / 16, t / 4 % 4, t % 4)`: the left operand's block is (row block, contraction
    block), the right operand's (contraction block, column block), the result's (row block, column block). -/
theorem idx_facts : ∀ t : Fin cfg0.N, win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- The array the left window stages is the first argument: the host's narrowing of it to bf16 before the call
    changes no extended real. -/
theorem V_v0 (c : Dev nD) : (V m c main_v0 : S4096x4096.Idx → EReal) = argA m c := by
  dsimp only [Gen.V, Gen.hostOps0]; after_results; rfl

/-- Likewise the right window stages the second argument. -/
theorem V_v1 (c : Dev nD) : (V m c main_v1 : S4096x4096.Idx → EReal) = argB m c := by
  dsimp only [Gen.V, Gen.hostOps0]; after_results; rfl

/-- Entry `(r, x)` of the left block at point `t` is `A (1024 (t / 16) + r, 1024 (t % 4) + x)`. -/
theorem ablk_apply (c : Dev nD) (t : Fin cfg0.N) (r x : Fin 1024) (p k : Fin 4096)
    (hp : p.val = 1024 * (t.val / 16) + r.val) (hk : k.val = 1024 * (t.val % 4) + x.val) :
    ablk m c t (ix2 r x) = argA m c (ix2 p k) := by
  obtain ⟨e0, e1, -, -, -, -⟩ := idx_facts t
  show V m c main_v0 (((cfg0.win 0).blk t).view.emb (ix2 r x)) = _
  rw [V_v0]
  congr 1
  funext a
  apply Fin.ext
  match a with
  | ⟨0, _⟩ => show win0_0.index t (0 : Fin 2) * 1024 + 1 * r.val = p.val; omega
  | ⟨1, _⟩ => show win0_0.index t (1 : Fin 2) * 1024 + 1 * x.val = k.val; omega

/-- Entry `(x, s)` of the right block at point `t` is `B (1024 (t % 4) + x, 1024 (t / 4 % 4) + s)`. -/
theorem bblk_apply (c : Dev nD) (t : Fin cfg0.N) (x s : Fin 1024) (k q : Fin 4096)
    (hk : k.val = 1024 * (t.val % 4) + x.val) (hq : q.val = 1024 * (t.val / 4 % 4) + s.val) :
    bblk m c t (ix2 x s) = argB m c (ix2 k q) := by
  obtain ⟨-, -, e0, e1, -, -⟩ := idx_facts t
  show V m c main_v1 (((cfg0.win 1).blk t).view.emb (ix2 x s)) = _
  rw [V_v1]
  congr 1
  funext a
  apply Fin.ext
  match a with
  | ⟨0, _⟩ => show win0_1.index t (0 : Fin 2) * 1024 + 1 * x.val = k.val; omega
  | ⟨1, _⟩ => show win0_1.index t (1 : Fin 2) * 1024 + 1 * s.val = q.val; omega

end Cert.KernelIdeal.Acc

end
-- ==== Proof.Fold.lean ====
/-
  The accumulator after a run of four points.

  At an entry the body's step is `acc + ∑ x < 1024, a (r, x) · b (x, s)` (a matrix-unit product into the zero
  accumulator is that sum over the extended reals). A point with contraction coordinate 0 starts from the zero
  block, every other point from what the point before left. So after the last point of a run `4 q, …, 4 q + 3`
  the accumulator holds, entry by entry, `0 + (d₀ + d₁ + d₂ + d₃)` with `dₛ` the product of point `4 q + s`'s two
  input blocks — the fold of the run, unrolled at an entry.
-/
import proofs.«129728_j60842506715779_1_alg».proof.Proof.Gen.KernelIdeal.Value
import proofs.«129728_j60842506715779_1_alg».proof.Proof.LibPlainDot
import proofs.«129728_j60842506715779_1_alg».proof.Proof.Pieces
import proofs.«129728_j60842506715779_1_alg».proof.Proof.Blocks
import Idealize.ShloMosaic.Lib.Pipeline.Value

noncomputable section

open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The body's one arithmetic step at an entry: the accumulator's entry plus the product of the two input blocks
    there, a sum over the block's 1024 contraction positions. -/
theorem step_apply (acc : Vec Ideal S1024x1024 .f32) (x0 x1 : Vec Ideal S1024x1024 .bf16) (r s : Fin 1024) :
    k0_pay2 acc x0 x1 (ix2 r s) = acc (ix2 r s) + ∑ x : Fin 1024, x0 (ix2 r x) * x1 (ix2 x s) := by
  unfold k0_pay2
  simp only [shapeCast_self]
  exact congrArg (acc (ix2 r s) + ·) (Cert.Lib.PlainDot.matmul_zero_apply none x0 x1 r s)

/-- The block a first point stores before accumulating is zero everywhere. -/
theorem zero_apply (y : S1024x1024.Idx) : (k0_pay1 (F := Ideal)) y = 0 := by
  unfold k0_pay1
  simp only [shapeCast_self]
  show Ideal.ofBits .f32 0x00000000#32 = 0
  exact Ideal.ofBits_zero_f32

/-- WHAT POINT `n` ADDS to the accumulator at entry `y`: the product of its two input blocks there (zero past the grid,
    where nothing is ever read). -/
def addend (c : Dev nD) (n : ℕ) (y : S1024x1024.Idx) : EReal :=
  if h : n < cfg0.N then ∑ x : Fin 1024, ablk m c ⟨n, h⟩ (ix2 (y 0) x) * bblk m c ⟨n, h⟩ (ix2 x (y 1)) else 0

/-- At a point whose contraction coordinate is 0 the accumulator restarts: it ends at `0 +` the point's addend,
    whatever it held. -/
theorem scAt_first (c : Dev nD) (n : ℕ) (hb : n < cfg0.N) (h0 : n % 4 = 0) (acc : Vec Ideal S1024x1024 .f32)
    (y : S1024x1024.Idx) : Value.scAt0_0 m c n hb acc y = 0 + addend m c n y := by
  have h1 : ¬n % 4 = 3 := by omega
  obtain ⟨r, s, rfl⟩ : ∃ r s, y = ix2 r s := ⟨y 0, y 1, eq_ix2 y⟩
  unfold Value.scAt0_0
  rw [dif_pos h0, dif_neg h1, scratch_first, step_apply, zero_apply, addend, dif_pos hb]

/-- At every other point it ends at what it held plus the point's addend. -/
theorem scAt_later (c : Dev nD) (n : ℕ) (hb : n < cfg0.N) (h0 : ¬n % 4 = 0) (acc : Vec Ideal S1024x1024 .f32)
    (y : S1024x1024.Idx) : Value.scAt0_0 m c n hb acc y = acc y + addend m c n y := by
  obtain ⟨r, s, rfl⟩ : ∃ r s, y = ix2 r s := ⟨y 0, y 1, eq_ix2 y⟩
  unfold Value.scAt0_0
  rw [dif_neg h0]
  by_cases h1 : n % 4 = 3
  · rw [dif_pos h1, scratch_last, step_apply, addend, dif_pos hb]
  · rw [dif_neg h1, scratch_middle, step_apply, addend, dif_pos hb]

/-- THE ACCUMULATOR AFTER A LAST POINT `t` (contraction coordinate 3) holds the four addends of `t`'s run
    `4 (t / 4), …, 4 (t / 4) + 3`, added in order to zero. -/
theorem scratch_at_last (c : Dev nD) (t : Fin cfg0.N) (ht : t.val % 4 = 3) (y : S1024x1024.Idx) :
    (outsAt0 m c t.val t.isLt).2 y = 0 + ∑ s ∈ Finset.range 4, addend m c (4 * (t.val / 4) + s) y := by
  rw [Value.soutsAt0_0_eq m c t]
  have key := Pipeline.accAt_add_apply (N := cfg0.N) (ι := S1024x1024.Idx) (β := EReal)
    (fun n h => Value.scAt0_0 m c n h (VS0_0.read (Elt Ideal) VS0_0.junk)) (Value.scAt0_0 m c) (fun _ => 0) (addend m c)
    (4 * (t.val / 4)) 3
    (fun h i => scAt_first m c _ h (by omega) _ i)
    (fun n h acc i hlt hle => scAt_later m c n h (by omega) acc i)
    (t.val % 4) (by omega)
  rw [key, ht]

end Cert.KernelIdeal.Acc

end
-- ==== Proof.LibSumRuns.lean ====
/-
  A sum over the first `b * n` naturals, cut into `n` consecutive runs of length `b`.

  In any commutative additive monoid `∑ s < n, ∑ x < b, f (b * s + x) = ∑ k < b * n, f k`: the runs
  `[b s, b s + b)` follow one another and exhaust `[0, b n)`. Only associativity of the sum is used (the runs
  are taken in order), so the statement holds over the extended reals, where no cancellation law does.
-/
import Mathlib.Algebra.BigOperators.Intervals

namespace Cert.Lib.SumRuns

open Finset

/-- The sum over `[0, b n)` is the sum, run after run, of the `n` runs of length `b`. -/
theorem sum_runs {β : Type*} [AddCommMonoid β] (f : ℕ → β) (b : ℕ) :
    ∀ n : ℕ, ∑ s ∈ range n, ∑ x ∈ range b, f (b * s + x) = ∑ k ∈ range (b * n), f k
  | 0 => by simp
  | n + 1 => by rw [Finset.sum_range_succ, sum_runs f b n, Nat.mul_succ, Finset.sum_range_add]

end Cert.Lib.SumRuns
-- ==== Proof.MatSum.lean ====
/-
  The product of two 4096×4096 matrices over the extended reals, and its contraction cut into four runs.

  `prodAB A B` at `(p, q)` is `∑ k < 4096, A (p, k) · B (k, q)`. The contraction range is the four runs
  `[1024 s, 1024 s + 1024)`, `s < 4`, one after the other; so if `part s` is the partial product over run `s`,
  `∑ s < 4, part s` is the entry of the product. Addition of extended reals is commutative and associative, and
  nothing else is used: no entry need be finite.
-/
import proofs.«129728_j60842506715779_1_alg».proof.Proof.LibSumRuns
import Idealize.ShloMosaic.Lib.ValueIdx
import Mathlib.Algebra.BigOperators.Fin

noncomputable section

namespace Cert.MatSum

open Idealize.ShloMosaic Idealize.ShloMosaic.ValueIdx

/-- The shape of both matrices and of their product. -/
abbrev Sq : Shape := ⟨2, ![4096, 4096]⟩

/-- The matrix product over the extended reals, entry by entry. -/
def prodAB (A B : FVec Ideal Sq .f32) : FVec Ideal Sq .f32 :=
  fun i => (∑ k : Fin 4096, A (ix2 (i 0) k) * B (ix2 k (i 1)) : EReal)

/-- Term `k` of entry `(p, q)`'s contraction, as a function of every natural (zero past the range). -/
def term (A B : FVec Ideal Sq .f32) (p q : Fin 4096) (k : ℕ) : EReal :=
  if h : k < 4096 then A (ix2 p ⟨k, h⟩) * B (ix2 ⟨k, h⟩ q) else 0

/-- The entry is the sum of its terms over `[0, 4096)`. -/
theorem prodAB_eq_sum_term (A B : FVec Ideal Sq .f32) (p q : Fin 4096) :
    prodAB A B (ix2 p q) = ∑ k ∈ Finset.range 4096, term A B p q k := by
  rw [← Fin.sum_univ_eq_sum_range (term A B p q) 4096]
  exact Finset.sum_congr rfl fun k _ => by rw [term, dif_pos k.isLt]

/-- FOUR RUNS. If `part s`, for `s < 4`, is the partial product over the run `[1024 s, 1024 s + 1024)`, the
    parts add up to the entry of the product. -/
theorem sum_parts (A B : FVec Ideal Sq .f32) (p q : Fin 4096) (part : ℕ → EReal)
    (hpart : ∀ s, s < 4 → part s = ∑ x : Fin 1024, term A B p q (1024 * s + x.val)) :
    ∑ s ∈ Finset.range 4, part s = prodAB A B (ix2 p q) := by
  rw [prodAB_eq_sum_term, show (4096 : ℕ) = 1024 * 4 from rfl, ← Cert.Lib.SumRuns.sum_runs]
  refine Finset.sum_congr rfl fun s hs => ?_
  rw [hpart s (Finset.mem_range.mp hs), Fin.sum_univ_eq_sum_range (fun x => term A B p q (1024 * s + x)) 1024]

end Cert.MatSum

end
-- ==== Proof.Final.lean ====
/-
  The kernel's result array is the product of its two arguments.

  The output block is written back once per (row block, column block): after the point with contraction
  coordinate 3, where the body copies the accumulator into it. The accumulator then holds the four partial
  products of that block's run, and those are, entry by entry, the contraction of `A·B` cut into its four runs of
  1024 positions. The sixteen blocks written back tile the 4096×4096 result.
-/
import proofs.«129728_j60842506715779_1_alg».proof.Proof.Fold
import proofs.«129728_j60842506715779_1_alg».proof.Proof.MatSum

noncomputable section

open Idealize.ShloMosaic Idealize.ShloMosaic.TcCoe Idealize.SL.Sem Idealize.ShloMosaic.ValueIdx

open Idealize.ShloMosaic.Pipeline (Dat)

namespace Cert.KernelIdeal.Acc

open Cert.KernelIdeal Cert.KernelIdeal.Gen

variable (m : (ℓ : Loc nD τ sig) → Buf (Elt Ideal) ℓ)

/-- At a last point the output block holds what the accumulator holds: the same step's value, stored in one and
    copied to the other. -/
theorem out_eq_scratch (c : Dev nD) (t : Fin cfg0.N) (h0 : ¬t.val % 4 = 0) (h1 : t.val % 4 = 3) :
    (outsAt0 m c t.val t.isLt).1 = (outsAt0 m c t.val t.isLt).2 := by
  rw [outsAt0_C m c t h0 h1]
  dsimp only
  rw [out_last, scratch_last]

/-- The run of points `4 (t / 4) + s`, `s < 4`, of a last point `t` computes, at entry `(r, s')` of its block, the four
    partial products of entry `(1024 (t / 16) + r, 1024 (t / 4 % 4) + s')` of `A·B`. -/
theorem addend_eq_part (c : Dev nD) (t : Fin cfg0.N) (ht : t.val % 4 = 3) (r s' : Fin 1024) (p q : Fin 4096)
    (hp : p.val = 1024 * (t.val / 16) + r.val) (hq : q.val = 1024 * (t.val / 4 % 4) + s'.val) (s : ℕ) (hs : s < 4) :
    addend m c (4 * (t.val / 4) + s) (ix2 r s') = ∑ x : Fin 1024, Cert.MatSum.term (argA m c) (argB m c) p q (1024 * s + x.val) := by
  have hN : t.val < 64 := lt_of_lt_of_eq t.isLt (show cfg0.N = 64 from N_0)
  have hb : 4 * (t.val / 4) + s < cfg0.N := lt_of_lt_of_eq (show 4 * (t.val / 4) + s < 64 by omega) (show 64 = cfg0.N from N_0.symm)
  rw [addend, dif_pos hb]
  refine Finset.sum_congr rfl fun x _ => ?_
  have hx : 1024 * s + x.val < 4096 := by have := x.isLt; omega
  rw [Cert.MatSum.term, dif_pos hx]
  rw [ablk_apply m c ⟨4 * (t.val / 4) + s, hb⟩ r x p ⟨1024 * s + x.val, hx⟩ (by dsimp only; omega) (by dsimp only; omega),
    bblk_apply m c ⟨4 * (t.val / 4) + s, hb⟩ x s' ⟨1024 * s + x.val, hx⟩ q (by dsimp only; omega) (by dsimp only; omega)]

/-- WHAT A FLUSHING POINT WRITES BACK is its block of the product `A·B`. -/
theorem flushed_eq (c : Dev nD) (t : Fin cfg0.N) (hf : (cfg0.win 2).flush t = true) :
    (dats m 0 c).flushed 2 t
      = ((cfg0.win 2).blk t).view.read (Elt Ideal) (Cert.MatSum.prodAB (argA m c) (argB m c)) := by
  have h1 : t.val % 4 = 3 := (flush0_2 t).mp hf
  have h0 : ¬t.val % 4 = 0 := by omega
  have hN : t.val < 64 := lt_of_lt_of_eq t.isLt (show cfg0.N = 64 from N_0)
  obtain ⟨-, -, -, -, e0, e1⟩ := idx_facts t
  rw [Value.flushed2 m c t, out_eq_scratch m c t h0 h1]
  funext j
  have hr : (j 0).val < 1024 := (j 0).isLt
  have hs : (j 1).val < 1024 := (j 1).isLt
  have ej : (cfg0.win 2).xinj (grid0.coords t) j = ix2 (⟨(j 0).val, hr⟩ : Fin 1024) (⟨(j 1).val, hs⟩ : Fin 1024) :=
    funext fun a => Fin.ext (by match a with | ⟨0, _⟩ => rfl | ⟨1, _⟩ => rfl)
  have hp : 1024 * (t.val / 16) + (j 0).val < 4096 := by omega
  have hq : 1024 * (t.val / 4 % 4) + (j 1).val < 4096 := by omega
  have ei : ((cfg0.win 2).blk t).view.emb j
      = ix2 (⟨1024 * (t.val / 16) + (j 0).val, hp⟩ : Fin 4096) (⟨1024 * (t.val / 4 % 4) + (j 1).val, hq⟩ : Fin 4096) :=
    funext fun a => Fin.ext (by
      match a with
      | ⟨0, _⟩ => show win0_2.index t (0 : Fin 2) * 1024 + 1 * (j 0).val = 1024 * (t.val / 16) + (j 0).val; omega
      | ⟨1, _⟩ => show win0_2.index t (1 : Fin 2) * 1024 + 1 * (j 1).val = 1024 * (t.val / 4 % 4) + (j 1).val; omega)
  rw [View.read_apply]
  show (outsAt0 m c t.val t.isLt).2 ((cfg0.win 2).xinj (grid0.coords t) j) = Cert.MatSum.prodAB (argA m c) (argB m c) (((cfg0.win 2).blk t).view.emb j)
  rw [ej, ei, scratch_at_last m c t h1, zero_add]
  exact Cert.MatSum.sum_parts (argA m c) (argB m c) _ _ _ (fun s hs => addend_eq_part m c t h1 _ _ _ _ rfl rfl s hs)

/-- Every entry of the result lies in the block of the last point of its (row block, column block). -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  have hb : 16 * ((i 0).val / 1024) + 4 * ((i 1).val / 1024) + 3 < cfg0.N :=
    lt_of_lt_of_eq (show 16 * ((i 0).val / 1024) + 4 * ((i 1).val / 1024) + 3 < 64 by omega) (show 64 = cfg0.N from N_0.symm)
  obtain ⟨T, hT⟩ : ∃ T : Fin cfg0.N, T.val = 16 * ((i 0).val / 1024) + 4 * ((i 1).val / 1024) + 3 := ⟨⟨_, hb⟩, rfl⟩
  obtain ⟨-, -, -, -, e0, e1⟩ := idx_facts T
  refine ⟨T, (flush0_2 T).mpr (by omega), ?_⟩
  show i ∈ ((View.whole main_v2).slice (win0_2.rect T)).set
  rw [View.set_slice_whole, Rect.mem_set_unit]
  intro a
  match a with
  | ⟨0, _⟩ =>
    show win0_2.index T (0 : Fin 2) * 1024 ≤ (i 0).val ∧ (i 0).val < win0_2.index T (0 : Fin 2) * 1024 + 1024
    omega
  | ⟨1, _⟩ =>
    show win0_2.index T (1 : Fin 2) * 1024 ≤ (i 1).val ∧ (i 1).val < win0_2.index T (1 : Fin 2) * 1024 + 1024
    omega

/-- THE RESULT ARRAY after the run is the product of the two arguments. -/
theorem final (c : Dev nD) : (dats m 0 c).arrAt 2 cfg0.N = Cert.MatSum.prodAB (argA m c) (argB m c) :=
  (dats m 0 c).arrAt_eq_of_cover 2 (Cert.MatSum.prodAB (argA m c) (argB m c)) (flushed_eq m c) cover

/-- The kernel's run, read: the result at `A·B`, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = Cert.MatSum.prodAB (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Acc

end
-- ==== Proof.RefValue.lean ====
/-
  The reference's result is the same product.

  The reference is one `dot_general` of the two arguments, contracting the left operand's columns with the right
  operand's rows; over the extended reals its entry `(p, q)` is `∑ k < 4096, A (p, k) · B (k, q)`.
-/
import proofs.«129728_j60842506715779_1_alg».proof.Proof.Gen.ReferenceIdeal.Read
import proofs.«129728_j60842506715779_1_alg».proof.Proof.MatSum

noncomputable section

open Idealize.ShloMosaic Idealize.ShloMosaic.TcCoe Idealize.SL.Sem Idealize.ShloMosaic.ValueIdx

namespace Cert.ReferenceIdeal.RefValue

open Cert.ReferenceIdeal Cert.ReferenceIdeal.Gen

/-- The host's product of the two arguments is `prodAB`. -/
theorem ref_eq (A B : FVec Ideal S4096x4096 .f32) :
    Host.dotGeneral dot_S4096x4096_S4096x4096_S4096x4096_1_0_0_1_n_n none A B = Cert.MatSum.prodAB A B := by
  rw [Cert.ReferenceIdeal.Read.val_main_v0_eq]
  funext i
  rw [Cert.ReferenceIdeal.Read.val_main_v0_apply]
  unfold Cert.MatSum.prodAB
  refine Finset.sum_congr rfl fun k _ => ?_
  have el : Cert.ReferenceIdeal.Read.lidx_main_v0 i k = ix2 (i 0) k :=
    funext fun a => Fin.ext (by match a with | ⟨0, _⟩ => rfl | ⟨1, _⟩ => rfl)
  have er : Cert.ReferenceIdeal.Read.ridx_main_v0 i k = ix2 k (i 1) :=
    funext fun a => Fin.ext (by match a with | ⟨0, _⟩ => rfl | ⟨1, _⟩ => rfl)
  rw [el, er]
  rfl

end Cert.ReferenceIdeal.RefValue

end
-- ==== Proof.lean ====
/-
  A 4096×4096 matrix product, tiled 1024×1024×1024 and accumulated over the contraction axis, against one whole product.

  The kernel runs a 4×4×4 grid. At point (i, j, k) it multiplies block (i, k) of the left argument by block (k, j)
  of the right one on the matrix unit and adds the product into a 1024×1024 accumulator, which it zeroes first when
  k = 0 and copies to block (i, j) of the result when k = 3. The arguments are narrowed to bf16 by the host before
  the call. The reference is one product of the two arguments.

  Over the extended reals a change of float format is the identity and a matrix-unit product into zero is the plain
  sum of products, so block (i, j) of the kernel's result holds, entry by entry,
      0 + ∑ k < 4, ∑ x < 1024, A (p, 1024 k + x) · B (1024 k + x, q),
  and the reference's entry is ∑ k' < 4096, A (p, k') · B (k', q). The two are equal because the four runs
  [1024 k, 1024 k + 1024) follow one another and exhaust [0, 4096): only associativity of the sum is used, so no
  entry of either argument need be finite, and the precondition is not opened.

  The modules: `MatSum` (the product, and the four-runs law, over `LibSumRuns`); `Pieces` (what one point leaves
  in the accumulator and in the output block); `Blocks` (a point's input blocks as entries of the arguments);
  `Fold` (the accumulator after a run of four points, entry by entry, over `LibPlainDot`); `Final` (the result array
  and the kernel's run); `RefValue` (the reference's product). The three frames are the generated ones;
  the idealization rewrote nothing, so `preserves` is trivial.
-/
import proofs.«129728_j60842506715779_1_alg».proof.Defs
import proofs.«129728_j60842506715779_1_alg».proof.Proof.Gen.Kernel
import proofs.«129728_j60842506715779_1_alg».proof.Proof.Gen.Kernel.Skeleton
import proofs.«129728_j60842506715779_1_alg».proof.Proof.Gen.Kernel.Launch
import proofs.«129728_j60842506715779_1_alg».proof.Proof.Gen.Kernel.Points
import proofs.«129728_j60842506715779_1_alg».proof.Proof.Gen.Kernel.Frame
import proofs.«129728_j60842506715779_1_alg».proof.Proof.Gen.KernelIdeal
import proofs.«129728_j60842506715779_1_alg».proof.Proof.Gen.KernelIdeal.Skeleton
import proofs.«129728_j60842506715779_1_alg».proof.Proof.Gen.KernelIdeal.Launch
import proofs.«129728_j60842506715779_1_alg».proof.Proof.Gen.KernelIdeal.Points
import proofs.«129728_j60842506715779_1_alg».proof.Proof.Gen.KernelIdeal.Frame
import proofs.«129728_j60842506715779_1_alg».proof.Proof.Gen.ReferenceIdeal
import proofs.«129728_j60842506715779_1_alg».proof.Proof.Gen.Pre_finite_inputs
import proofs.«129728_j60842506715779_1_alg».proof.Proof.Gen.KernelIdeal.Value
import proofs.«129728_j60842506715779_1_alg».proof.Proof.Gen.ReferenceIdeal.Run
import proofs.«129728_j60842506715779_1_alg».proof.Proof.Gen.ReferenceIdeal.Read
import proofs.«129728_j60842506715779_1_alg».proof.Proof.Final
import proofs.«129728_j60842506715779_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is one host operation: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the two arguments both programs end with the product `A·B` in their result:
    the kernel by its sixteen accumulated blocks, the reference by its one product. -/
theorem algebraic : Cert.algebraic_KernelIdeal_ReferenceIdeal := by
  intro m ρ m' ρ' _ hagree
  refine ⟨fun c => Cert.MatSum.prodAB (Cert.KernelIdeal.Acc.argA m c) (Cert.KernelIdeal.Acc.argB m c),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.ref_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
